-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S512 : Shape := ⟨1, ![512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8 : S_.BroadcastsInDim S8 (![] : Fin 0 → Fin S8.rank)
  reducesTo_S8_S_d0 : S8.ReducesTo [0] S_
  bcast_S_S2048x8 : S_.BroadcastsInDim S2048x8 (![] : Fin 0 → Fin S2048x8.rank)
  reducesTo_S2048x8_S_d0_1 : S2048x8.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x2048 .f32) (main_arg5 : FVec F S512 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S8x4096x512 .f32) (main_arg1 : FVec F S8 .f32) (main_arg2 : FVec F S2048x8 .f32) (main_arg3 : FVec F S2048 .f32) (main_arg4 : FVec F S512x2048 .f32) (main_arg5 : FVec F S512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S2048x8 .f32 := Host.absf main_arg2
  let main_cst_2 : FVec F S_ .f32 := constant S_ .f32 0x7F800000#32
  let main_v10 : FVec F S2048x8 .f32 := broadcastInDim S2048x8 ![] bcast_S_S2048x8 main_cst_2
  let main_v11 : IVec S2048x8 1 := cmpf .olt main_v9 main_v10
  let main_c_3 : IVec S_ 1 := constantI S_ 1 1#1
  let main_v12 : IVec S_ 1 := (fun x v => Host.reduce IntOp.andi x v reducesTo_S2048x8_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_v13 main_v16
-- ==== Kernel.lean ====
abbrev S8x4096x512 : Shape := ⟨3, ![8, 4096, 512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S512 : Shape := ⟨1, ![512]⟩
abbrev S8x4096x8 : Shape := ⟨3, ![8, 4096, 8]⟩
abbrev S1x1x8 : Shape := ⟨3, ![1, 1, 8]⟩
abbrev S32768x8 : Shape := ⟨2, ![32768, 8]⟩
abbrev S8x2048 : Shape := ⟨2, ![8, 2048]⟩
abbrev S2048x512 : Shape := ⟨2, ![2048, 512]⟩
abbrev S1x2048 : Shape := ⟨2, ![1, 2048]⟩
abbrev S1x512 : Shape := ⟨2, ![1, 512]⟩
abbrev S32768x512 : Shape := ⟨2, ![32768, 512]⟩
abbrev S1024x8 : Shape := ⟨2, ![1024, 8]⟩
abbrev S1024x512 : Shape := ⟨2, ![1024, 512]⟩
abbrev S1024x2048 : Shape := ⟨2, ![1024, 2048]⟩

abbrev nBuf : Space → Nat
  | .hbm => 21
  | .vmem => 8
  | .smem => 0
  | _ => 0

abbrev bufTy : (tb : Table) → Fin (tcTables nBuf tb) → BufTy
  | .hbm, ⟨0, _⟩ => ⟨S8x4096x512, .f32⟩
  | .hbm, ⟨1, _⟩ => ⟨S8, .f32⟩
  | .hbm, ⟨2, _⟩ => ⟨S2048x8, .f32⟩
  | .hbm, ⟨3, _⟩ => ⟨S2048, .f32⟩
  | .hbm, ⟨4, _⟩ => ⟨S512x2048, .f32⟩
  | .hbm, ⟨5, _⟩ => ⟨S512, .f32⟩
  | .hbm, ⟨6, _⟩ => ⟨S8x4096x8, .f32⟩
  | .hbm, ⟨7, _⟩ => ⟨S8x4096x8, .f32⟩
  | .hbm, ⟨8, _⟩ => ⟨S8, .f32⟩
  | .hbm, ⟨9, _⟩ => ⟨S1x1x8, .f32⟩
  | .hbm, ⟨10, _⟩ => ⟨S8x4096x8, .f32⟩
  | .hbm, ⟨11, _⟩ => ⟨S8x4096x8, .f32⟩
  | .hbm, ⟨12, _⟩ => ⟨S32768x8, .f32⟩
  | .hbm, ⟨13, _⟩ => ⟨S8x2048, .f32⟩
  | .hbm, ⟨14, _⟩ => ⟨S8x2048, .bf16⟩
  | .hbm, ⟨15, _⟩ => ⟨S2048x512, .f32⟩
  | .hbm, ⟨16, _⟩ => ⟨S2048x512, .bf16⟩
  | .hbm, ⟨17, _⟩ => ⟨S1x2048, .f32⟩
  | .hbm, ⟨18, _⟩ => ⟨S1x512, .f32⟩
  | .hbm, ⟨19, _⟩ => ⟨S32768x512, .f32⟩
  | .hbm, ⟨20, _⟩ => ⟨S8x4096x512, .f32⟩
  | .local _ .vmem, ⟨0, _⟩ => ⟨S1024x8, .f32⟩
  | .local _ .vmem, ⟨1, _⟩ => ⟨S1024x8, .f32⟩
  | .local _ .vmem, ⟨2, _⟩ => ⟨S8x2048, .bf16⟩
  | .local _ .vmem, ⟨3, _⟩ => ⟨S1x2048, .f32⟩
  | .local _ .vmem, ⟨4, _⟩ => ⟨S2048x512, .bf16⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S8x4096x512_S8x4096x8_0_0_0 : S8x4096x512.Slices ![0, 0, 0] S8x4096x8
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  shapeCasts_S8x4096x8_S32768x8 : S8x4096x8.ShapeCasts S32768x8
  transposes_S2048x8_S8x2048_1_0 : S2048x8.Transposes [1, 0] S8x2048
  bitsLt_bf16_f32 : FTy.bits .bf16 < FTy.bits .f32
  transposes_S512x2048_S2048x512_1_0 : S512x2048.Transposes [1, 0] S2048x512
  shapeCasts_S2048_S1x2048 : S2048.ShapeCasts S1x2048
  shapeCasts_S512_S1x512 : S512.ShapeCasts S1x512
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S32768x512_S8x4096x512 : S32768x512.ShapeCasts S8x4096x512
  dot_S1024x8_S8x2048_S1024x2048_1_0_0_1_n_n_wf : DotDims.WF S1024x8 S8x2048 S1024x2048 [1] [0] [0] [1] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S32768x8.size a
  hwx0_0 : ∀ i : grid0.Coords, EltTy.bits .f32 = 32 ∨ (Rect.block (s := S32768x8) S1024x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S8x2048.size a
  hwx0_1 : ∀ i : grid0.Coords, EltTy.bits .bf16 = 32 ∨ (Rect.block (s := S8x2048) S8x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .bf16 = 32 ∨ (Rect.block (s := S2048x512) S2048x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S32768x512.size a
  hwx0_5 : ∀ i : grid0.Coords, EltTy.bits .f32 = 32 ∨ (Rect.block (s := S32768x512) S1024x512.size (cc0_transform_5 i) (hinb0_5 i)).WholeWords (EltTy.packing .f32)

variable [Facts₀]

def dot_S1024x8_S8x2048_S1024x2048_1_0_0_1_n_n : DotDims S1024x8 S8x2048 S1024x2048 where
  lhsContracting := [1]
  rhsContracting := [0]
  lhsNonContracting := [0]
  rhsNonContracting := [1]
  lhsBatch := []
  rhsBatch := []
  wf := dot_S1024x8_S8x2048_S1024x2048_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v6) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S512 : Shape := ⟨1, ![512]⟩
abbrev S8x4096x8 : Shape := ⟨3, ![8, 4096, 8]⟩
abbrev S1x1x8 : Shape := ⟨3, ![1, 1, 8]⟩
abbrev S8x4096x2048 : Shape := ⟨3, ![8, 4096, 2048]⟩
abbrev S1x1x2048 : Shape := ⟨3, ![1, 1, 2048]⟩
abbrev S_ : Shape := ⟨0, ![]⟩
abbrev S1x1x512 : Shape := ⟨3, ![1, 1, 512]⟩

abbrev nBuf : Space → Nat
  | .hbm => 23
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8, .f32⟩
  | .hbm, ⟨2, _⟩ => ⟨S2048x8, .f32⟩
  | .hbm, ⟨3, _⟩ => ⟨S2048, .f32⟩
  | .hbm, ⟨4, _⟩ => ⟨S512x2048, .f32⟩
  | .hbm, ⟨5, _⟩ => ⟨S512, .f32⟩
  | .hbm, ⟨6, _⟩ => ⟨S8x4096x8, .f32⟩
  | .hbm, ⟨7, _⟩ => ⟨S8x4096x8, .f32⟩
  | .hbm, ⟨8, _⟩ => ⟨S8, .f32⟩
  | .hbm, ⟨9, _⟩ => ⟨S1x1x8, .f32⟩
  | .hbm, ⟨10, _⟩ => ⟨S8x4096x8, .f32⟩
  | .hbm, ⟨11, _⟩ => ⟨S8x4096x8, .f32⟩
  | .hbm, ⟨12, _⟩ => ⟨S8x4096x2048, .f32⟩
  | .hbm, ⟨13, _⟩ => ⟨S1x1x2048, .f32⟩
  | .hbm, ⟨14, _⟩ => ⟨S8x4096x2048, .f32⟩
  | .hbm, ⟨15, _⟩ => ⟨S8x4096x2048, .f32⟩
  | .hbm, ⟨16, _⟩ => ⟨S_, .f32⟩
  | .hbm, ⟨17, _⟩ => ⟨S8x4096x2048, .f32⟩
  | .hbm, ⟨18, _⟩ => ⟨S8x4096x2048, .f32⟩
  | .hbm, ⟨19, _⟩ => ⟨S8x4096x512, .f32⟩
  | .hbm, ⟨20, _⟩ => ⟨S1x1x512, .f32⟩
  | .hbm, ⟨21, _⟩ => ⟨S8x4096x512, .f32⟩
  | .hbm, ⟨22, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S8x4096x512_S8x4096x8_0_0_0 : S8x4096x512.Slices ![0, 0, 0] S8x4096x8
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  bcast_S_S8x4096x2048 : S_.BroadcastsInDim S8x4096x2048 (![] : Fin 0 → Fin S8x4096x2048.rank)
  bcast_S512_S1x1x512_2 : S512.BroadcastsInDim S1x1x512 (![2] : Fin 1 → Fin S1x1x512.rank)
  bcast_S1x1x512_S8x4096x512_0_1_2 : S1x1x512.BroadcastsInDim S8x4096x512 (![0, 1, 2] : Fin 3 → Fin S8x4096x512.rank)
  dot_S8x4096x8_S2048x8_S8x4096x2048_2_1_01_0_n_n_wf : DotDims.WF S8x4096x8 S2048x8 S8x4096x2048 [2] [1] [0, 1] [0] [] []
  dot_S8x4096x2048_S512x2048_S8x4096x512_2_1_01_0_n_n_wf : DotDims.WF S8x4096x2048 S512x2048 S8x4096x512 [2] [1] [0, 1] [0] [] []

variable [Facts₀]

def dot_S8x4096x8_S2048x8_S8x4096x2048_2_1_01_0_n_n : DotDims S8x4096x8 S2048x8 S8x4096x2048 where
  lhsContracting := [2]
  rhsContracting := [1]
  lhsNonContracting := [0, 1]
  rhsNonContracting := [0]
  lhsBatch := []
  rhsBatch := []
  wf := dot_S8x4096x8_S2048x8_S8x4096x2048_2_1_01_0_n_n_wf
def dot_S8x4096x2048_S512x2048_S8x4096x512_2_1_01_0_n_n : DotDims S8x4096x2048 S512x2048 S8x4096x512 where
  lhsContracting := [2]
  rhsContracting := [1]
  lhsNonContracting := [0, 1]
  rhsNonContracting := [0]
  lhsBatch := []
  rhsBatch := []
  wf := dot_S8x4096x2048_S512x2048_S8x4096x512_2_1_01_0_n_n_wf

class Facts : Prop extends Facts₀ where

variable [Facts]
-- ==== Proof.Payload.lean ====
/-
  What one grid point stores, read at an index.

  A point holds 1024 token rows. Its store is, at row p and channel e, the second product's sum over the 2048
  hidden units of (the positive part of the first product's sum over the eight features, plus the first bias) times
  the second weight, plus the second bias. Each product accumulates from zero, so it is its plain sum over the one
  contracted axis; the changes of float format on the way are the identity on the extended reals; each bias row is
  repeated down the 1024 rows.
-/
import proofs.«107797_j65481071395349_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! ## The first product: rows of features against the 8 × 2048 weight -/

theorem featDot_lhs_0 (i : S1024x2048.Idx) (q : dot_S1024x8_S8x2048_S1024x2048_1_0_0_1_n_n.contr.Idx) :
    (dot_S1024x8_S8x2048_S1024x2048_1_0_0_1_n_n.lhsIdx i q 0).val = (i 0).val := by
  unfold DotDims.lhsIdx
  rw [dif_neg (show ¬(0 : Fin S1024x8.rank) ∈ dot_S1024x8_S8x2048_S1024x2048_1_0_0_1_n_n.lhsBatch by decide), dif_pos (show (0 : Fin S1024x8.rank) ∈ dot_S1024x8_S8x2048_S1024x2048_1_0_0_1_n_n.lhsNonContracting by decide)]
  rfl
theorem featDot_lhs_1 (i : S1024x2048.Idx) (q : dot_S1024x8_S8x2048_S1024x2048_1_0_0_1_n_n.contr.Idx) :
    (dot_S1024x8_S8x2048_S1024x2048_1_0_0_1_n_n.lhsIdx i q 1).val = (q ⟨0, by decide⟩).val :=
  dot_S1024x8_S8x2048_S1024x2048_1_0_0_1_n_n.lhsIdx_val_of_single rfl i q
theorem featDot_rhs_0 (i : S1024x2048.Idx) (q : dot_S1024x8_S8x2048_S1024x2048_1_0_0_1_n_n.contr.Idx) :
    (dot_S1024x8_S8x2048_S1024x2048_1_0_0_1_n_n.rhsIdx i q 0).val = (q ⟨0, by decide⟩).val :=
  dot_S1024x8_S8x2048_S1024x2048_1_0_0_1_n_n.rhsIdx_val_of_single rfl i q
theorem featDot_rhs_1 (i : S1024x2048.Idx) (q : dot_S1024x8_S8x2048_S1024x2048_1_0_0_1_n_n.contr.Idx) :
    (dot_S1024x8_S8x2048_S1024x2048_1_0_0_1_n_n.rhsIdx i q 1).val = (i 1).val := by
  unfold DotDims.rhsIdx
  rw [dif_neg (show ¬(1 : Fin S8x2048.rank) ∈ dot_S1024x8_S8x2048_S1024x2048_1_0_0_1_n_n.rhsBatch by decide), dif_pos (show (1 : Fin S8x2048.rank) ∈ dot_S1024x8_S8x2048_S1024x2048_1_0_0_1_n_n.rhsNonContracting by decide)]
  rfl

/-- Accumulated from zero, entry (p, f) of the first product is the sum over the eight features. -/
theorem featDot_apply (l : FVec Ideal S1024x8 .bf16) (r : FVec Ideal S8x2048 .bf16) (p : Fin 1024) (f : Fin 2048) :
    matmul dot_S1024x8_S8x2048_S1024x2048_1_0_0_1_n_n none l r (constant S1024x2048 .f32 0x00000000#32) (ix2 p f)
      = ∑ q : Fin 8, l (ix2 p q) * r (ix2 q f) := by
  simp only [matmul]
  rw [Ideal.matmul_constant_zero_apply, ← Equiv.sum_comp (contrEquiv1 dot_S1024x8_S8x2048_S1024x2048_1_0_0_1_n_n 8 rfl rfl).symm]
  refine Finset.sum_congr rfl fun k _ => ?_
  have hk := contrEquiv1_symm_val dot_S1024x8_S8x2048_S1024x2048_1_0_0_1_n_n 8 rfl rfl k
  have el : dot_S1024x8_S8x2048_S1024x2048_1_0_0_1_n_n.lhsIdx (ix2 p f) ((contrEquiv1 dot_S1024x8_S8x2048_S1024x2048_1_0_0_1_n_n 8 rfl rfl).symm k) = ix2 p k := funext fun a => Fin.ext (by
    match a with
    | ⟨0, _⟩ => exact featDot_lhs_0 _ _
    | ⟨1, _⟩ => exact (featDot_lhs_1 _ _).trans hk)
  have er : dot_S1024x8_S8x2048_S1024x2048_1_0_0_1_n_n.rhsIdx (ix2 p f) ((contrEquiv1 dot_S1024x8_S8x2048_S1024x2048_1_0_0_1_n_n 8 rfl rfl).symm k) = ix2 k f := funext fun a => Fin.ext (by
    match a with
    | ⟨0, _⟩ => exact (featDot_rhs_0 _ _).trans hk
    | ⟨1, _⟩ => exact featDot_rhs_1 _ _)
  rw [el, er]

/-! ## The second product: rows of hidden units against the 2048 × 512 weight -/

theorem hidDot_lhs_0 (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl
theorem hidDot_lhs_1 (i : S1024x512.Idx) (q : dot_S1024x2048_S2048x512_S1024x512_1_0_0_1_n_n.contr.Idx) :
    (dot_S1024x2048_S2048x512_S1024x512_1_0_0_1_n_n.lhsIdx i q 1).val = (q ⟨0, by decide⟩).val :=
  dot_S1024x2048_S2048x512_S1024x512_1_0_0_1_n_n.lhsIdx_val_of_single rfl i q
theorem hidDot_rhs_0 (i : S1024x512.Idx) (q : dot_S1024x2048_S2048x512_S1024x512_1_0_0_1_n_n.contr.Idx) :
    (dot_S1024x2048_S2048x512_S1024x512_1_0_0_1_n_n.rhsIdx i q 0).val = (q ⟨0, by decide⟩).val :=
  dot_S1024x2048_S2048x512_S1024x512_1_0_0_1_n_n.rhsIdx_val_of_single rfl i q
theorem hidDot_rhs_1 (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

/-- Accumulated from zero, entry (p, e) of the second product is the sum over the 2048 hidden units. -/
theorem hidDot_apply (l : FVec Ideal S1024x2048 .bf16) (r : FVec Ideal S2048x512 .bf16) (p : Fin 1024) (e : Fin 512) :
    matmul dot_S1024x2048_S2048x512_S1024x512_1_0_0_1_n_n none l r (constant S1024x512 .f32 0x00000000#32) (ix2 p e)
      = ∑ f : Fin 2048, l (ix2 p f) * r (ix2 f e) := by
  simp only [matmul]
  rw [Ideal.matmul_constant_zero_apply, ← Equiv.sum_comp (contrEquiv1 dot_S1024x2048_S2048x512_S1024x512_1_0_0_1_n_n 2048 rfl rfl).symm]
  refine Finset.sum_congr rfl fun k _ => ?_
  have hk := contrEquiv1_symm_val dot_S1024x2048_S2048x512_S1024x512_1_0_0_1_n_n 2048 rfl rfl k
  have el : dot_S1024x2048_S2048x512_S1024x512_1_0_0_1_n_n.lhsIdx (ix2 p e) ((contrEquiv1 dot_S1024x2048_S2048x512_S1024x512_1_0_0_1_n_n 2048 rfl rfl).symm k) = ix2 p k := funext fun a => Fin.ext (by
    match a with
    | ⟨0, _⟩ => exact hidDot_lhs_0 _ _
    | ⟨1, _⟩ => exact (hidDot_lhs_1 _ _).trans hk)
  have er : dot_S1024x2048_S2048x512_S1024x512_1_0_0_1_n_n.rhsIdx (ix2 p e) ((contrEquiv1 dot_S1024x2048_S2048x512_S1024x512_1_0_0_1_n_n 2048 rfl rfl).symm k) = ix2 k e := funext fun a => Fin.ext (by
    match a with
    | ⟨0, _⟩ => exact (hidDot_rhs_0 _ _).trans hk
    | ⟨1, _⟩ => exact hidDot_rhs_1 _ _)
  rw [el, er]

/-! ## The bias rows, repeated down the point's 1024 rows -/

theorem bias1_apply (v : FVec Ideal S1x2048 .f32) (p : Fin 1024) (f : Fin 2048) :
    broadcastTo S1024x2048 v broadcasts_S1x2048_S1024x2048 (ix2 p f) = v (ix2 0 f) :=
  broadcastTo_apply v broadcasts_S1x2048_S1024x2048 (ix2 p f) (ix2 0 f) (fun a => match a with
    | ⟨0, _⟩ => by show (0 : Nat) = if (1 : Nat) = 1 then 0 else p.val; rw [if_pos rfl]
    | ⟨1, _⟩ => by show f.val = if (2048 : Nat) = 1 then 0 else f.val; rw [if_neg (by decide)])

theorem bias2_apply (v : FVec Ideal S1x512 .f32) (p : Fin 1024) (e : Fin 512) :
    broadcastTo S1024x512 v broadcasts_S1x512_S1024x512 (ix2 p e) = v (ix2 0 e) :=
  broadcastTo_apply v broadcasts_S1x512_S1024x512 (ix2 p e) (ix2 0 e) (fun a => match a with
    | ⟨0, _⟩ => by show (0 : Nat) = if (1 : Nat) = 1 then 0 else p.val; rw [if_pos rfl]
    | ⟨1, _⟩ => by show e.val = if (512 : Nat) = 1 then 0 else e.val; rw [if_neg (by decide)])

/-! ## The store's value at (p, e) -/

theorem stored_apply (x0 : Vec Ideal S1024x8 .f32) (x1 : Vec Ideal S8x2048 .bf16) (x2 : Vec Ideal S1x2048 .f32)
    (x3 : Vec Ideal S2048x512 .bf16) (x4 : Vec Ideal S1x512 .f32) (p : Fin 1024) (e : Fin 512) :
    k0_pay1 x0 x1 x2 x3 x4 (ix2 p e)
      = ∑ f : Fin 2048, max (∑ q : Fin 8, x0 (ix2 p q) * x1 (ix2 q f) + x2 (ix2 0 f)) (Ideal.ofBits .f32 0x00000000#32) * x3 (ix2 f e)
        + x4 (ix2 0 e) := by
  unfold k0_pay1
  simp only [shapeCast_self]
  rw [addf_apply, hidDot_apply, bias2_apply]
  refine congrArg (· + x4 (ix2 0 e)) (Finset.sum_congr rfl fun f _ => ?_)
  refine congrArg (· * x3 (ix2 f e)) ?_
  rw [truncf_apply, maximumf_apply, addf_apply, featDot_apply, bias1_apply, broadcast_apply]
  rfl

end Cert.KernelIdeal.Payload

end
-- ==== Proof.Spec.lean ====
/-
  The function both programs compute, on the extended reals.

  A token is a pair (b, s); its circuit features are the eight numbers cos x[b,s,q] · cos θ[q] (only the first
  eight channels of x enter). A two-layer head follows: the hidden unit f is the positive part of
  Σ_q feature[q] · W1[f,q] + b1[f], and output channel e is Σ_f hidden[f] · W2[e,f] + b2[e].

  Stated twice: `tokens` over the layout one program works in (tokens flattened to rows n = 4096·b + s, the two weight
  matrices transposed, the biases as one-row matrices), and `head` over the argument arrays themselves.
-/
import Idealize.ShloMosaic.PureOps.Ideal
import Idealize.ShloMosaic.PureOps.Ideal.Laws
import Idealize.ShloMosaic.Lib.ValueIdx

noncomputable section

namespace Cert.Head

open Idealize.ShloMosaic Idealize.ShloMosaic.ValueIdx

/-- The zero both programs clamp the hidden layer at, as the word they print. -/
abbrev zeroWord : EReal := Ideal.ofBits .f32 0x00000000#32

/-- Feature channel q as a channel of x (the first eight of its 512). -/
abbrev chan (q : Fin 8) : Fin 512 := ⟨q.val, lt_of_lt_of_le q.isLt (by decide)⟩

/-- The flattened token row of (b, s). -/
abbrev row (b : Fin 8) (s : Fin 4096) : Fin 32768 := ⟨b.val * 4096 + s.val, by have := b.isLt; have := s.isLt; omega⟩

/-- Hidden unit f of token row n, over the flattened layout: Q[n,q] the features, A = W1ᵀ, β the bias row. -/
def hiddenRow (Q : (⟨2, ![32768, 8]⟩ : Shape).Idx → EReal) (A : (⟨2, ![8, 2048]⟩ : Shape).Idx → EReal)
    (β : (⟨2, ![1, 2048]⟩ : Shape).Idx → EReal) (n : Fin 32768) (f : Fin 2048) : EReal :=
  max (∑ q : Fin 8, Q (ix2 n q) * A (ix2 q f) + β (ix2 0 f)) zeroWord

/-- Output channel e of token row n, over the flattened layout: B = W2ᵀ, γ the bias row. -/
def tokens (Q : (⟨2, ![32768, 8]⟩ : Shape).Idx → EReal) (A : (⟨2, ![8, 2048]⟩ : Shape).Idx → EReal)
    (β : (⟨2, ![1, 2048]⟩ : Shape).Idx → EReal) (B : (⟨2, ![2048, 512]⟩ : Shape).Idx → EReal)
    (γ : (⟨2, ![1, 512]⟩ : Shape).Idx → EReal) : (⟨2, ![32768, 512]⟩ : Shape).Idx → EReal := fun i =>
  ∑ f : Fin 2048, hiddenRow Q A β (i 0) f * B (ix2 f (i 1)) + γ (ix2 0 (i 1))

/-- Feature q of token (b, s). -/
def feature (x : (⟨3, ![8, 4096, 512]⟩ : Shape).Idx → EReal) (θ : (⟨1, ![8]⟩ : Shape).Idx → EReal)
    (b : Fin 8) (s : Fin 4096) (q : Fin 8) : EReal :=
  FloatOps.hostUnary (F := Ideal) (φ := .f32) .cos (x (ix3 b s (chan q))) * FloatOps.hostUnary (F := Ideal) (φ := .f32) .cos (θ (ix1 q))

/-- Hidden unit f of token (b, s), over the arguments. -/
def hidden (x : (⟨3, ![8, 4096, 512]⟩ : Shape).Idx → EReal) (θ : (⟨1, ![8]⟩ : Shape).Idx → EReal)
    (W1 : (⟨2, ![2048, 8]⟩ : Shape).Idx → EReal) (b1 : (⟨1, ![2048]⟩ : Shape).Idx → EReal)
    (b : Fin 8) (s : Fin 4096) (f : Fin 2048) : EReal :=
  max (∑ q : Fin 8, feature x θ b s q * W1 (ix2 f q) + b1 (ix1 f)) zeroWord

/-- The result array, over the arguments. -/
def head (x : (⟨3, ![8, 4096, 512]⟩ : Shape).Idx → EReal) (θ : (⟨1, ![8]⟩ : Shape).Idx → EReal)
    (W1 : (⟨2, ![2048, 8]⟩ : Shape).Idx → EReal) (b1 : (⟨1, ![2048]⟩ : Shape).Idx → EReal)
    (W2 : (⟨2, ![512, 2048]⟩ : Shape).Idx → EReal) (b2 : (⟨1, ![512]⟩ : Shape).Idx → EReal) :
    (⟨3, ![8, 4096, 512]⟩ : Shape).Idx → EReal := fun i =>
  ∑ f : Fin 2048, hidden x θ W1 b1 (i 0) (i 1) f * W2 (ix2 (i 2) f) + b2 (ix1 (i 2))

/-- The flattened form at row 4096·b + s, when its five operands are the arguments re-laid (features of (b, s), the
    weights transposed, the biases as rows), is the result at (b, s, e): the two sums agree term by term. -/
theorem tokens_eq_head (x : (⟨3, ![8, 4096, 512]⟩ : Shape).Idx → EReal) (θ : (⟨1, ![8]⟩ : Shape).Idx → EReal)
    (W1 : (⟨2, ![2048, 8]⟩ : Shape).Idx → EReal) (b1 : (⟨1, ![2048]⟩ : Shape).Idx → EReal)
    (W2 : (⟨2, ![512, 2048]⟩ : Shape).Idx → EReal) (b2 : (⟨1, ![512]⟩ : Shape).Idx → EReal)
    (Q : (⟨2, ![32768, 8]⟩ : Shape).Idx → EReal) (A : (⟨2, ![8, 2048]⟩ : Shape).Idx → EReal)
    (β : (⟨2, ![1, 2048]⟩ : Shape).Idx → EReal) (B : (⟨2, ![2048, 512]⟩ : Shape).Idx → EReal)
    (γ : (⟨2, ![1, 512]⟩ : Shape).Idx → EReal)
    (hQ : ∀ (b : Fin 8) (s : Fin 4096) (q : Fin 8), Q (ix2 (row b s) q) = feature x θ b s q)
    (hA : ∀ (q : Fin 8) (f : Fin 2048), A (ix2 q f) = W1 (ix2 f q))
    (hβ : ∀ f : Fin 2048, β (ix2 0 f) = b1 (ix1 f))
    (hB : ∀ (f : Fin 2048) (e : Fin 512), B (ix2 f e) = W2 (ix2 e f))
    (hγ : ∀ e : Fin 512, γ (ix2 0 e) = b2 (ix1 e))
    (b : Fin 8) (s : Fin 4096) (e : Fin 512) :
    tokens Q A β B γ (ix2 (row b s) e) = head x θ W1 b1 W2 b2 (ix3 b s e) := by
  show ∑ f : Fin 2048, hiddenRow Q A β (row b s) f * B (ix2 f e) + γ (ix2 0 e)
    = ∑ f : Fin 2048, hidden x θ W1 b1 b s f * W2 (ix2 e f) + b2 (ix1 e)
  rw [hγ]
  refine congrArg (· + b2 (ix1 e)) (Finset.sum_congr rfl fun f _ => ?_)
  rw [hB]
  refine congrArg (· * W2 (ix2 e f)) ?_
  unfold hiddenRow hidden
  rw [hβ]
  refine congrArg (fun z => max (z + b1 (ix1 f)) zeroWord) (Finset.sum_congr rfl fun q _ => ?_)
  rw [hQ, hA]

end Cert.Head

end
-- ==== Proof.Blocks.lean ====
/-
  From grid points to the whole result matrix.

  The 32768 token rows are cut into 32 consecutive blocks of 1024; point t reads block t of the feature matrix and the
  four small operands whole, and writes block t of the 32768 × 512 result. So row p of point t is token row
  1024·t + p, what the point writes back is block t of ONE matrix (`Cert.Head.tokens` of the five arrays as the region
  finds them), and since the 32 blocks tile the rows, that matrix is what the result array holds after the last point.
-/
import proofs.«107797_j65481071395349_1_alg».proof.Proof.Gen.KernelIdeal.Frame
import proofs.«107797_j65481071395349_1_alg».proof.Proof.Payload
import proofs.«107797_j65481071395349_1_alg».proof.Proof.Spec
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The five arrays the region reads, as it finds them. -/
abbrev feats (c : Dev nD) : S32768x8.Idx → EReal := V m c main_v6
abbrev wHid (c : Dev nD) : S8x2048.Idx → EReal := V m c main_v8
abbrev bHid (c : Dev nD) : S1x2048.Idx → EReal := V m c main_v11
abbrev wOut (c : Dev nD) : S2048x512.Idx → EReal := V m c main_v10
abbrev bOut (c : Dev nD) : S1x512.Idx → EReal := V m c main_v12

/-- The matrix the region leaves: every token row through the head. -/
abbrev resultRows (c : Dev nD) : S32768x512.Idx → EReal :=
  Cert.Head.tokens (feats m c) (wHid m c) (bHid m c) (wOut m c) (bOut m c)

theorem zeros2 : (![0, 0] : Fin 2 → Nat) = fun _ => 0 := funext fun a => by fin_cases a <;> rfl

/-- The printed index maps over the 32 points: the feature block and the result block are block t of their rows, the
    other four operands are their one block. -/
theorem blockIdx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Token row of row p of point t. -/
abbrev tokRow (t : Fin cfg0.N) (p : Fin 1024) : Fin 32768 :=
  ⟨t.val * 1024 + p.val, by have h : t.val < 32 := lt_of_lt_of_eq t.isLt N_0; have := p.isLt; omega⟩

/-- Point t's feature block is rows 1024·t … of the feature matrix. -/
theorem featBlock (c : Dev nD) (t : Fin cfg0.N) (p : Fin 1024) (q : Fin 8) :
    (iblk m c 0 t : Vec Ideal S1024x8 .f32) (ix2 p q) = feats m c (ix2 (tokRow t p) q) := by
  obtain ⟨h0, h1, -⟩ := blockIdx t
  unfold iblk
  rw [View.read_apply]
  show V m c main_v6 _ = V m c main_v6 _
  congr 1
  funext a
  apply Fin.ext
  match a with
  | ⟨0, _⟩ => show win0_0.index t (0 : Fin 2) * 1024 + 1 * p.val = t.val * 1024 + p.val; rw [h0]; omega
  | ⟨1, _⟩ => show win0_0.index t (1 : Fin 2) * 8 + 1 * q.val = q.val; rw [h1]; omega

theorem wHidBlock (c : Dev nD) (t : Fin cfg0.N) (q : Fin 8) (f : Fin 2048) :
    (iblk m c 1 t : Vec Ideal S8x2048 .bf16) (ix2 q f) = wHid m c (ix2 q f) := by
  obtain ⟨-, -, h0, h1, -⟩ := blockIdx t
  unfold iblk
  rw [View.read_apply]
  show V m c main_v8 _ = V m c main_v8 _
  congr 1
  funext a
  apply Fin.ext
  match a with
  | ⟨0, _⟩ => show win0_1.index t (0 : Fin 2) * 8 + 1 * q.val = q.val; rw [h0]; omega
  | ⟨1, _⟩ => show win0_1.index t (1 : Fin 2) * 2048 + 1 * f.val = f.val; rw [h1]; omega

theorem bHidBlock (c : Dev nD) (t : Fin cfg0.N) (f : Fin 2048) :
    (iblk m c 2 t : Vec Ideal S1x2048 .f32) (ix2 0 f) = bHid m c (ix2 0 f) := by
  obtain ⟨-, -, -, -, h0, h1, -⟩ := blockIdx t
  unfold iblk
  rw [View.read_apply]
  show V m c main_v11 _ = V m c main_v11 _
  congr 1
  funext a
  apply Fin.ext
  match a with
  | ⟨0, _⟩ => show win0_2.index t (0 : Fin 2) * 1 + 1 * 0 = 0; rw [h0]
  | ⟨1, _⟩ => show win0_2.index t (1 : Fin 2) * 2048 + 1 * f.val = f.val; rw [h1]; omega

theorem wOutBlock (c : Dev nD) (t : Fin cfg0.N) (f : Fin 2048) (e : Fin 512) :
    (iblk m c 3 t : Vec Ideal S2048x512 .bf16) (ix2 f e) = wOut m c (ix2 f e) := by
  obtain ⟨-, -, -, -, -, -, h0, h1, -⟩ := blockIdx t
  unfold iblk
  rw [View.read_apply]
  show V m c main_v10 _ = V m c main_v10 _
  congr 1
  funext a
  apply Fin.ext
  match a with
  | ⟨0, _⟩ => show win0_3.index t (0 : Fin 2) * 2048 + 1 * f.val = f.val; rw [h0]; omega
  | ⟨1, _⟩ => show win0_3.index t (1 : Fin 2) * 512 + 1 * e.val = e.val; rw [h1]; omega

theorem bOutBlock (c : Dev nD) (t : Fin cfg0.N) (e : Fin 512) :
    (iblk m c 4 t : Vec Ideal S1x512 .f32) (ix2 0 e) = bOut m c (ix2 0 e) := by
  obtain ⟨-, -, -, -, -, -, -, -, h0, h1, -⟩ := blockIdx t
  unfold iblk
  rw [View.read_apply]
  show V m c main_v12 _ = V m c main_v12 _
  congr 1
  funext a
  apply Fin.ext
  match a with
  | ⟨0, _⟩ => show win0_4.index t (0 : Fin 2) * 1 + 1 * 0 = 0; rw [h0]
  | ⟨1, _⟩ => show win0_4.index t (1 : Fin 2) * 512 + 1 * e.val = e.val; rw [h1]; omega

/-- What a point stores, over blocks that are restrictions of five arrays: the head's row. Stated over variables of
    the blocks' literal types. -/
theorem stored_eq_tokens (x0 : Vec Ideal S1024x8 .f32) (x1 : Vec Ideal S8x2048 .bf16) (x2 : Vec Ideal S1x2048 .f32)
    (x3 : Vec Ideal S2048x512 .bf16) (x4 : Vec Ideal S1x512 .f32)
    (Q : S32768x8.Idx → EReal) (A : S8x2048.Idx → EReal) (β : S1x2048.Idx → EReal) (B : S2048x512.Idx → EReal) (γ : S1x512.Idx → EReal)
    (p : Fin 1024) (e : Fin 512) (n : Fin 32768)
    (h0 : ∀ q : Fin 8, x0 (ix2 p q) = Q (ix2 n q)) (h1 : ∀ (q : Fin 8) (f : Fin 2048), x1 (ix2 q f) = A (ix2 q f))
    (h2 : ∀ f : Fin 2048, x2 (ix2 0 f) = β (ix2 0 f)) (h3 : ∀ (f : Fin 2048), x3 (ix2 f e) = B (ix2 f e))
    (h4 : x4 (ix2 0 e) = γ (ix2 0 e)) :
    k0_pay1 x0 x1 x2 x3 x4 (ix2 p e) = Cert.Head.tokens Q A β B γ (ix2 n e) := by
  rw [Cert.KernelIdeal.Payload.stored_apply]
  show _ = ∑ f : Fin 2048, Cert.Head.hiddenRow Q A β n f * B (ix2 f e) + γ (ix2 0 e)
  rw [h4]
  refine congrArg (· + γ (ix2 0 e)) (Finset.sum_congr rfl fun f _ => ?_)
  rw [h3]
  refine congrArg (· * B (ix2 f e)) ?_
  unfold Cert.Head.hiddenRow
  rw [h2]
  refine congrArg (fun z => max (z + β (ix2 0 f)) Cert.Head.zeroWord) (Finset.sum_congr rfl fun q _ => ?_)
  rw [h0, h1]

/-- WHAT POINT t WRITES BACK is block t of the result matrix. -/
theorem flushed_eq (c : Dev nD) (t : Fin cfg0.N) :
    (dats m 0 c).flushed 5 t = ((cfg0.win 5).blk t).view.read (Elt Ideal) (resultRows m c) := by
  show (cfg0.win 5).cut (grid0.coords t) ((dats m 0 c).after 5 t) = _
  rw [after0_5]
  unfold out0_5
  rw [View.canon_unit_zero zeros2]
  simp only [View.ld_unit_zero (S := S1024x8) zeros2, View.ld_unit_zero (S := S8x2048) zeros2, View.ld_unit_zero (S := S1x2048) zeros2,
    View.ld_unit_zero (S := S2048x512) zeros2, View.ld_unit_zero (S := S1x512) zeros2]
  obtain ⟨-, -, -, -, -, -, -, -, -, -, h0, h1⟩ := blockIdx t
  funext j
  obtain ⟨p, e, rfl⟩ : ∃ (p : Fin 1024) (e : Fin 512), j = ix2 p e := ⟨j 0, j 1, eq_ix2 j⟩
  show k0_pay1 (iblk m c 0 t) (iblk m c 1 t) (iblk m c 2 t) (iblk m c 3 t) (iblk m c 4 t) (ix2 p e)
    = resultRows m c (((cfg0.win 5).blk t).view.emb (ix2 p e))
  refine (stored_eq_tokens (iblk m c 0 t) (iblk m c 1 t) (iblk m c 2 t) (iblk m c 3 t) (iblk m c 4 t)
    (feats m c) (wHid m c) (bHid m c) (wOut m c) (bOut m c) p e (tokRow t p)
    (fun q => featBlock m c t p q) (fun q f => wHidBlock m c t q f) (fun f => bHidBlock m c t f)
    (fun f => wOutBlock m c t f e) (bOutBlock m c t e)).trans ?_
  refine congrArg (resultRows m c) ?_
  funext a
  apply Fin.ext
  match a with
  | ⟨0, _⟩ => show t.val * 1024 + p.val = win0_5.index t (0 : Fin 2) * 1024 + 1 * p.val; rw [h0]; omega
  | ⟨1, _⟩ => show e.val = win0_5.index t (1 : Fin 2) * 512 + 1 * e.val; rw [h1]; omega

/-- An index of the result matrix is in point t's block iff each coordinate is in the block's range. -/
theorem mem_blk (t : Fin cfg0.N) (i : S32768x512.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v13).slice (win0_5.rect t)).set ↔ _
  rw [View.set_slice_whole, Rect.mem_set_unit]
  exact Iff.rfl

/-- Row r lies in the block of point r / 1024: the blocks cover the matrix. -/
theorem covered (i : S32768x512.Idx) :
    ∃ t : Fin cfg0.N, (cfg0.win 5).flush t = true ∧ i ∈ ((cfg0.win 5).blk t).view.set := by
  have hi0 : (i 0).val < 32768 := (i 0).isLt
  have hi1 : (i 1).val < 512 := (i 1).isLt
  have hN : cfg0.N = 32 := N_0
  obtain ⟨t, ht⟩ : ∃ t : Fin cfg0.N, t.val = (i 0).val / 1024 := ⟨⟨(i 0).val / 1024, by rw [hN]; omega⟩, rfl⟩
  obtain ⟨-, -, -, -, -, -, -, -, -, -, h0, h1⟩ := blockIdx t
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; rw [h0, ht]; omega
  | ⟨1, _⟩ => show win0_5.index t (1 : Fin 2) * 512 ≤ (i 1).val ∧ (i 1).val < win0_5.index t (1 : Fin 2) * 512 + 512; rw [h1]; omega

/-- THE RESULT MATRIX after the last point. -/
theorem final (c : Dev nD) : (dats m 0 c).arrAt 5 cfg0.N = resultRows m c :=
  (dats m 0 c).arrAt_eq_of_cover 5 (resultRows m c) (fun t _ => flushed_eq m c t) (covered)

end Cert.KernelIdeal.Blocks

end
-- ==== Proof.Operands.lean ====
/-
  The five arrays the region reads, in terms of the arguments.

  Before the region the program computes the features cos x[b,s,q] · cos θ[q] for the first eight channels q and lays
  them out as a 32768 × 8 matrix (row 4096·b + s); transposes each weight matrix (the change of float format that
  follows is the identity on the extended reals); and views each bias vector as a one-row matrix. Each array is read
  here at an index.
-/
import proofs.«107797_j65481071395349_1_alg».proof.Proof.Gen.KernelIdeal.Frame
import proofs.«107797_j65481071395349_1_alg».proof.Proof.Spec
import Idealize.ShloMosaic.Lib.Pipeline.Value
import Idealize.ShloMosaic.Lib.StableHlo.Run
import Idealize.ShloMosaic.PureOps.Ideal.Laws

noncomputable section

namespace Cert.KernelIdeal.Operands

open Cert.KernelIdeal Cert.KernelIdeal.Gen Idealize.ShloMosaic Idealize.ShloMosaic.TcCoe Idealize.SL.Sem Idealize.ShloMosaic.ValueIdx
open Idealize.ShloMosaic.StableHlo Cert.Head

variable (m : (ℓ : Loc nD τ sig) → Buf (Elt Ideal) ℓ)

/-- The argument arrays, as functions on their indices. -/
abbrev argX (c : Dev nD) : S8x4096x512.Idx → EReal := m ((c : Thread nD τ).loc main_arg0)
abbrev argTheta (c : Dev nD) : S8.Idx → EReal := m ((c : Thread nD τ).loc main_arg1)
abbrev argW1 (c : Dev nD) : S2048x8.Idx → EReal := m ((c : Thread nD τ).loc main_arg2)
abbrev argB1 (c : Dev nD) : S2048.Idx → EReal := m ((c : Thread nD τ).loc main_arg3)
abbrev argW2 (c : Dev nD) : S512x2048.Idx → EReal := m ((c : Thread nD τ).loc main_arg4)
abbrev argB2 (c : Dev nD) : S512.Idx → EReal := m ((c : Thread nD τ).loc main_arg5)

/-! ## The feature matrix -/

/-- The feature matrix as the operations make it. -/
def featsOf (x : FVec Ideal S8x4096x512 .f32) (θ : FVec Ideal S8 .f32) : FVec Ideal S32768x8 .f32 :=
  shapeCast S32768x8 (mulf (Host.cos (extractStridedSlice S8x4096x8 ![0, 0, 0] x slices_S8x4096x512_S8x4096x8_0_0_0))
    (broadcastInDim S8x4096x8 ![0, 1, 2] bcast_S1x1x8_S8x4096x8_0_1_2 (broadcastInDim S1x1x8 ![2] bcast_S8_S1x1x8_2 (Host.cos θ))))
    shapeCasts_S8x4096x8_S32768x8

theorem feats_term (c : Dev nD) : @Eq (S32768x8.Idx → EReal) (V m c main_v6) (featsOf (argX m c) (argTheta m c)) := by
  show StableHlo.after hostOps0 (fun b => m (c, b)) (Proc.devRef .tc main_v6) = _
  after_results
  rfl

/-- Row 4096·b + s, column q of the feature matrix is feature q of token (b, s). -/
theorem feats_apply (c : Dev nD) (b : Fin 8) (s : Fin 4096) (q : Fin 8) :
    (V m c main_v6 : S32768x8.Idx → EReal) (ix2 (row b s) q) = feature (argX m c) (argTheta m c) b s q := by
  refine (congrFun (feats_term m c) (ix2 (row b s) q)).trans ?_
  unfold featsOf
  rw [shapeCast_apply _ shapeCasts_S8x4096x8_S32768x8 (ix2 (row b s) q) (ix3 b s q) (by
    rw [Shape.rowMajor_val_three, Shape.rowMajor_val_two]
    show (b.val * 4096 + s.val) * 8 + q.val = (b.val * 4096 + s.val) * 8 + q.val
    rfl)]
  rw [mulf_apply]
  unfold feature
  congr 1
  · refine congrArg (FloatOps.hostUnary (F := Ideal) (φ := .f32) .cos) ?_
    exact extractStridedSlice_apply ![0, 0, 0] (argX m c) slices_S8x4096x512_S8x4096x8_0_0_0 (ix3 b s q) (ix3 b s (chan q)) (fun a => match a with
      | ⟨0, _⟩ => by show b.val = 0 + b.val; omega
      | ⟨1, _⟩ => by show s.val = 0 + s.val; omega
      | ⟨2, _⟩ => by show q.val = 0 + q.val; omega)
  · rw [broadcastInDim_apply _ bcast_S1x1x8_S8x4096x8_0_1_2 _ (ix3 b s q) (ix3 (0 : Fin 1) (0 : Fin 1) q) (fun a => match a with
      | ⟨0, _⟩ => by show (0 : Nat) = if (1 : Nat) = 1 then 0 else b.val; rw [if_pos rfl]
      | ⟨1, _⟩ => by show (0 : Nat) = if (1 : Nat) = 1 then 0 else s.val; rw [if_pos rfl]
      | ⟨2, _⟩ => by show q.val = if (8 : Nat) = 1 then 0 else q.val; rw [if_neg (by decide)])]
    rw [broadcastInDim_apply _ bcast_S8_S1x1x8_2 _ (ix3 (0 : Fin 1) (0 : Fin 1) q) (ix1 q) (fun a => match a with
      | ⟨0, _⟩ => by show q.val = if (8 : Nat) = 1 then 0 else q.val; rw [if_neg (by decide)])]
    rfl

/-! ## The transposed weights -/

def wHidOf (w : FVec Ideal S2048x8 .f32) : FVec Ideal S8x2048 .bf16 :=
  truncf .bf16 (transpose S8x2048 [1, 0] w transposes_S2048x8_S8x2048_1_0) bitsLt_bf16_f32

theorem wHid_term (c : Dev nD) : @Eq (S8x2048.Idx → EReal) (V m c main_v8) (wHidOf (argW1 m c)) := by
  show StableHlo.after hostOps0 (fun b => m (c, b)) (Proc.devRef .tc main_v8) = _
  after_results
  rfl

theorem wHid_apply (c : Dev nD) (q : Fin 8) (f : Fin 2048) :
    (V m c main_v8 : S8x2048.Idx → EReal) (ix2 q f) = argW1 m c (ix2 f q) := by
  refine (congrFun (wHid_term m c) (ix2 q f)).trans ?_
  unfold wHidOf
  rw [truncf_apply]
  exact transpose_apply [1, 0] (argW1 m c) transposes_S2048x8_S8x2048_1_0 (ix2 q f) (ix2 f q) (fun a => match a with
    | ⟨0, _⟩ => rfl
    | ⟨1, _⟩ => rfl)

def wOutOf (w : FVec Ideal S512x2048 .f32) : FVec Ideal S2048x512 .bf16 :=
  truncf .bf16 (transpose S2048x512 [1, 0] w transposes_S512x2048_S2048x512_1_0) bitsLt_bf16_f32

theorem wOut_term (c : Dev nD) : @Eq (S2048x512.Idx → EReal) (V m c main_v10) (wOutOf (argW2 m c)) := by
  show StableHlo.after hostOps0 (fun b => m (c, b)) (Proc.devRef .tc main_v10) = _
  after_results
  rfl

theorem wOut_apply (c : Dev nD) (f : Fin 2048) (e : Fin 512) :
    (V m c main_v10 : S2048x512.Idx → EReal) (ix2 f e) = argW2 m c (ix2 e f) := by
  refine (congrFun (wOut_term m c) (ix2 f e)).trans ?_
  unfold wOutOf
  rw [truncf_apply]
  exact transpose_apply [1, 0] (argW2 m c) transposes_S512x2048_S2048x512_1_0 (ix2 f e) (ix2 e f) (fun a => match a with
    | ⟨0, _⟩ => rfl
    | ⟨1, _⟩ => rfl)

/-! ## The bias rows -/

def bHidOf (v : FVec Ideal S2048 .f32) : FVec Ideal S1x2048 .f32 := shapeCast S1x2048 v shapeCasts_S2048_S1x2048

theorem bHid_term (c : Dev nD) : @Eq (S1x2048.Idx → EReal) (V m c main_v11) (bHidOf (argB1 m c)) := by
  show StableHlo.after hostOps0 (fun b => m (c, b)) (Proc.devRef .tc main_v11) = _
  after_results
  rfl

theorem bHid_apply (c : Dev nD) (f : Fin 2048) :
    (V m c main_v11 : S1x2048.Idx → EReal) (ix2 0 f) = argB1 m c (ix1 f) := by
  refine (congrFun (bHid_term m c) (ix2 0 f)).trans ?_
  unfold bHidOf
  exact shapeCast_apply _ shapeCasts_S2048_S1x2048 (ix2 0 f) (ix1 f) (by
    rw [Shape.rowMajor_val_one, Shape.rowMajor_val_two]
    show f.val = 0 * 2048 + f.val
    omega)

def bOutOf (v : FVec Ideal S512 .f32) : FVec Ideal S1x512 .f32 := shapeCast S1x512 v shapeCasts_S512_S1x512

theorem bOut_term (c : Dev nD) : @Eq (S1x512.Idx → EReal) (V m c main_v12) (bOutOf (argB2 m c)) := by
  show StableHlo.after hostOps0 (fun b => m (c, b)) (Proc.devRef .tc main_v12) = _
  after_results
  rfl

theorem bOut_apply (c : Dev nD) (e : Fin 512) :
    (V m c main_v12 : S1x512.Idx → EReal) (ix2 0 e) = argB2 m c (ix1 e) := by
  refine (congrFun (bOut_term m c) (ix2 0 e)).trans ?_
  unfold bOutOf
  exact shapeCast_apply _ shapeCasts_S512_S1x512 (ix2 0 e) (ix1 e) (by
    rw [Shape.rowMajor_val_one, Shape.rowMajor_val_two]
    show e.val = 0 * 512 + e.val
    omega)

end Cert.KernelIdeal.Operands

end
-- ==== Proof.KernelRun.lean ====
/-
  The kernel program's run, read: its result array is `Cert.Head.head` of the arguments.

  After the region one line views the 32768 × 512 result matrix as 8 × 4096 × 512: entry (b, s, e) is row 4096·b + s,
  column e. That row of the matrix is the head of token (b, s), because the matrix is `Cert.Head.tokens` of the five
  arrays the region read and those are the arguments re-laid.
-/
import proofs.«107797_j65481071395349_1_alg».proof.Proof.Blocks
import proofs.«107797_j65481071395349_1_alg».proof.Proof.Operands

noncomputable section

namespace Cert.KernelIdeal.Run

open Cert.KernelIdeal Cert.KernelIdeal.Gen Idealize.ShloMosaic Idealize.ShloMosaic.TcCoe Idealize.SL.Sem Idealize.ShloMosaic.ValueIdx
open Idealize.ShloMosaic.StableHlo Cert.Head Cert.KernelIdeal.Blocks Cert.KernelIdeal.Operands

variable (m : (ℓ : Loc nD τ sig) → Buf (Elt Ideal) ℓ) (ρ : Dev nD → PrngReg)

/-- The program's result over the arguments. -/
abbrev result (c : Dev nD) : S8x4096x512.Idx → EReal :=
  head (argX m c) (argTheta m c) (argW1 m c) (argB1 m c) (argW2 m c) (argB2 m c)

/-- The result matrix re-viewed as 8 × 4096 × 512. -/
def viewed (R : FVec Ideal S32768x512 .f32) : FVec Ideal S8x4096x512 .f32 :=
  shapeCast S8x4096x512 R shapeCasts_S32768x512_S8x4096x512

/-- What the line after the region leaves in the result array: the result matrix, re-viewed. -/
theorem tail_term (c : Dev nD) :
    @Eq (S8x4096x512.Idx → EReal) (Pipeline.afterTail₀ cfgs (dats m) 0 (V0 m) [hostOps1] c main_v14) (viewed (resultRows m c)) := by
  have e : @Eq (S32768x512.Idx → EReal)
      (Pipeline.withArrays (cfgs 0).spec c (V0 m c) (fun w => (dats m 0 c).arrAt w (cfgs 0).N) (Proc.devRef .tc main_v13))
      (resultRows m c) :=
    (Pipeline.withArrays_arr spec0 launch0.win.arr_inj c _ _ 5).trans (final m c)
  unfold Pipeline.afterTail₀
  show StableHlo.after hostOps1 _ (Proc.devRef .tc main_v14) = _
  after_results
  rw [e]
  rfl

/-- Entry (b, s, e) of the result array is the head of token (b, s) at channel e. -/
theorem tail_eq (c : Dev nD) :
    @Eq (S8x4096x512.Idx → EReal) (Pipeline.afterTail₀ cfgs (dats m) 0 (V0 m) [hostOps1] c main_v14) (result m c) := by
  refine (tail_term m c).trans ?_
  funext i
  obtain ⟨b, s, e, rfl⟩ : ∃ (b : Fin 8) (s : Fin 4096) (e : Fin 512), i = ix3 b s e := ⟨i 0, i 1, i 2, eq_ix3 i⟩
  unfold viewed
  rw [shapeCast_apply _ shapeCasts_S32768x512_S8x4096x512 (ix3 b s e) (ix2 (row b s) e) (by
    rw [Shape.rowMajor_val_three, Shape.rowMajor_val_two]
    show (b.val * 4096 + s.val) * 512 + e.val = (b.val * 4096 + s.val) * 512 + e.val
    rfl)]
  exact tokens_eq_head (argX m c) (argTheta m c) (argW1 m c) (argB1 m c) (argW2 m c) (argB2 m c)
    (feats m c) (wHid m c) (bHid m c) (wOut m c) (bOut m c)
    (fun b s q => feats_apply m c b s q) (fun q f => wHid_apply m c q f) (fun f => bHid_apply m c f)
    (fun f e => wOut_apply m c f e) (fun e => bOut_apply m c e) b s e

/-- THE RUN: every weakly fair execution ends with the result array at the head of every token and the arguments as
    launched. -/
theorem run : θ_run defs (onTc (τ := τ) (main (F := Ideal))) ⟨m, fun _ => 0, ρ⟩ fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Run

end
-- ==== Proof.RefValue.lean ====
/-
  The reference program's result array is `Cert.Head.head` of its arguments.

  The reference works on the 8 × 4096 × · arrays directly: the features by the same slice, cosines and product; each
  layer a contraction of the last axis against the weight's second axis (so W1[f,q] and W2[e,f] enter untransposed), a
  bias repeated over the tokens, and between the layers the maximum with a repeated zero. Read one operation at a
  time at an index, that is the head's formula; what is checked here is only that the operations' index maps name the
  coordinates the formula names.
-/
import proofs.«107797_j65481071395349_1_alg».proof.Proof.Gen.ReferenceIdeal.Read
import proofs.«107797_j65481071395349_1_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Head

variable (x0 : FVec Ideal S8x4096x512 .f32) (x1 : FVec Ideal S8 .f32) (x2 : FVec Ideal S2048x8 .f32)
  (x3 : FVec Ideal S2048 .f32) (x4 : FVec Ideal S512x2048 .f32) (x5 : FVec Ideal S512 .f32)

/-! ## The index maps, at coordinates -/

theorem sliceIdx (b : Fin 8) (s : Fin 4096) (q : Fin 8) : idx_main_v0 (ix3 b s q) = ix3 b s (chan q) :=
  funext fun a => Fin.ext (by match a with | ⟨0, _⟩ => rfl | ⟨1, _⟩ => rfl | ⟨2, _⟩ => rfl)

theorem thetaIdx (b : Fin 8) (s : Fin 4096) (q : Fin 8) : idx_main_v3 (idx_main_v4 (ix3 b s q)) = ix1 q :=
  funext fun a => Fin.ext (by match a with | ⟨0, _⟩ => rfl)

theorem featL (b : Fin 8) (s : Fin 4096) (f : Fin 2048) (q : Fin 8) : lidx_main_v6 (ix3 b s f) q = ix3 b s q :=
  funext fun a => Fin.ext (by match a with | ⟨0, _⟩ => rfl | ⟨1, _⟩ => rfl | ⟨2, _⟩ => rfl)

theorem featR (b : Fin 8) (s : Fin 4096) (f : Fin 2048) (q : Fin 8) : ridx_main_v6 (ix3 b s f) q = ix2 f q :=
  funext fun a => Fin.ext (by match a with | ⟨0, _⟩ => rfl | ⟨1, _⟩ => rfl)

theorem bias1Idx (b : Fin 8) (s : Fin 4096) (f : Fin 2048) : idx_main_v7 (idx_main_v8 (ix3 b s f)) = ix1 f :=
  funext fun a => Fin.ext (by match a with | ⟨0, _⟩ => rfl)

theorem hidL (b : Fin 8) (s : Fin 4096) (e : Fin 512) (f : Fin 2048) : lidx_main_v11 (ix3 b s e) f = ix3 b s f :=
  funext fun a => Fin.ext (by match a with | ⟨0, _⟩ => rfl | ⟨1, _⟩ => rfl | ⟨2, _⟩ => rfl)

theorem hidR (b : Fin 8) (s : Fin 4096) (e : Fin 512) (f : Fin 2048) : ridx_main_v11 (ix3 b s e) f = ix2 e f :=
  funext fun a => Fin.ext (by match a with | ⟨0, _⟩ => rfl | ⟨1, _⟩ => rfl)

theorem bias2Idx (b : Fin 8) (s : Fin 4096) (e : Fin 512) : idx_main_v12 (idx_main_v13 (ix3 b s e)) = ix1 e :=
  funext fun a => Fin.ext (by match a with | ⟨0, _⟩ => rfl)

/-! ## The stages -/

/-- The product of the two cosines at (b, s, q) is feature q of token (b, s). -/
theorem feature_apply (b : Fin 8) (s : Fin 4096) (q : Fin 8) :
    val_main_v5 (F := Ideal) x0 x1 (ix3 b s q) = feature x0 x1 b s q := by
  rw [val_main_v5_apply, val_main_v1_apply, val_main_v0_apply, val_main_v4_apply, val_main_v3_apply, val_main_v2_apply,
    sliceIdx, thetaIdx]
  rfl

/-- The clamped first layer at (b, s, f) is hidden unit f of token (b, s). -/
theorem hidden_apply (b : Fin 8) (s : Fin 4096) (f : Fin 2048) :
    val_main_v10 (F := Ideal) x0 x1 x2 x3 (ix3 b s f) = Cert.Head.hidden x0 x1 x2 x3 b s f := by
  rw [val_main_v10_apply, val_main_v9_apply, val_main_v6_apply, val_main_v8_apply, val_main_v7_apply,
    val_main_call0_v0_apply, val_main_call0_cst_apply, bias1Idx]
  unfold Cert.Head.hidden
  show max ((∑ k : Fin 8, val_main_v5 (F := Ideal) x0 x1 (lidx_main_v6 (ix3 b s f) k) * x2 (ridx_main_v6 (ix3 b s f) k)) + x3 (ix1 f)) zeroWord = _
  refine congrArg (fun z => max (z + x3 (ix1 f)) zeroWord) (Finset.sum_congr rfl fun q _ => ?_)
  rw [featL, featR, feature_apply]

/-- The result at (b, s, e). -/
theorem result_apply (b : Fin 8) (s : Fin 4096) (e : Fin 512) :
    val_main_v14 (F := Ideal) x0 x1 x2 x3 x4 x5 (ix3 b s e) = head x0 x1 x2 x3 x4 x5 (ix3 b s e) := by
  rw [val_main_v14_apply, val_main_v11_apply, val_main_v13_apply, val_main_v12_apply, bias2Idx]
  show (∑ k : Fin 2048, val_main_v10 (F := Ideal) x0 x1 x2 x3 (lidx_main_v11 (ix3 b s e) k) * x4 (ridx_main_v11 (ix3 b s e) k)) + x5 (ix1 e)
    = ∑ f : Fin 2048, Cert.Head.hidden x0 x1 x2 x3 b s f * x4 (ix2 e f) + x5 (ix1 e)
  refine congrArg (· + x5 (ix1 e)) (Finset.sum_congr rfl fun f _ => ?_)
  rw [hidL, hidR, hidden_apply]

/-- The reference's result array is the head of its arguments. -/
theorem result_eq : val_main_v14 (F := Ideal) x0 x1 x2 x3 x4 x5 = head x0 x1 x2 x3 x4 x5 := by
  funext i
  obtain ⟨b, s, e, rfl⟩ : ∃ (b : Fin 8) (s : Fin 4096) (e : Fin 512), i = ix3 b s e := ⟨i 0, i 1, i 2, eq_ix3 i⟩
  exact result_apply x0 x1 x2 x3 x4 x5 b s e

end Cert.ReferenceIdeal.RefValue

end
-- ==== Proof.lean ====
/-
  A quantum-inspired feed-forward head: kernel against reference, on the extended reals.

  Each token (b, s) of x : [8, 4096, 512] gives eight features cos x[b,s,q] · cos θ[q], q < 8. A hidden layer of 2048
  units, the positive part of Σ_q feature[q] · W1[f,q] + b1[f], feeds 512 outputs Σ_f hidden[f] · W2[e,f] + b2[e]
  (`Cert.Head.head`, Proof/Spec.lean).

  The kernel program computes the features on the host, flattens the tokens to 32768 rows, transposes the two weight
  matrices, and runs the two layers in one region over 32 blocks of 1024 rows, the four small operands resident; a
  final line views the 32768 × 512 result as 8 × 4096 × 512. Each block's store is the two products' plain sums with
  the biases and the clamp between them (Proof/Payload.lean); the blocks tile the rows, so the region leaves one matrix,
  every token row through the head (Proof/Blocks.lean); the operands the region reads are the arguments re-laid
  (Proof/Operands.lean); so the program's result is the head of the arguments (Proof/KernelRun.lean). The reference
  computes the same on the unflattened arrays with the weights untransposed (Proof/RefValue.lean). The two formulas
  agree term by term: the same products and sums over the same finite index sets, so no law beyond reading each
  operation at an index is used, and the inputs' finiteness is never needed.

  No operation was rewritten in the idealized kernel, so the idealization statement is the trivial one. The kernel programs' frames are
  the generated ones; the reference's frame is its generated run with the result forgotten.
-/
import proofs.«107797_j65481071395349_1_alg».proof.Defs
import proofs.«107797_j65481071395349_1_alg».proof.Proof.Gen.Kernel
import proofs.«107797_j65481071395349_1_alg».proof.Proof.Gen.Kernel.Skeleton
import proofs.«107797_j65481071395349_1_alg».proof.Proof.Gen.Kernel.Launch
import proofs.«107797_j65481071395349_1_alg».proof.Proof.Gen.Kernel.Points
import proofs.«107797_j65481071395349_1_alg».proof.Proof.Gen.Kernel.Frame
import proofs.«107797_j65481071395349_1_alg».proof.Proof.Gen.KernelIdeal
import proofs.«107797_j65481071395349_1_alg».proof.Proof.Gen.KernelIdeal.Skeleton
import proofs.«107797_j65481071395349_1_alg».proof.Proof.Gen.KernelIdeal.Launch
import proofs.«107797_j65481071395349_1_alg».proof.Proof.Gen.KernelIdeal.Points
import proofs.«107797_j65481071395349_1_alg».proof.Proof.Gen.KernelIdeal.Frame
import proofs.«107797_j65481071395349_1_alg».proof.Proof.Gen.ReferenceIdeal
import proofs.«107797_j65481071395349_1_alg».proof.Proof.Gen.Pre_finite_inputs
import proofs.«107797_j65481071395349_1_alg».proof.Proof.Gen.ReferenceIdeal.Run
import proofs.«107797_j65481071395349_1_alg».proof.Proof.Gen.ReferenceIdeal.Read
import proofs.«107797_j65481071395349_1_alg».proof.Proof.KernelRun
import proofs.«107797_j65481071395349_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with the result array at the head of the (agreeing) arguments. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq]
  obtain ⟨e0, e1, e2, e3, e4, e5⟩ := hagree c
  rw [e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
